-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x128 : Shape := ⟨3, ![50000, 32, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x128 : S_.BroadcastsInDim S50000x32x128 (![] : Fin 0 → Fin S50000x32x128.rank)
  reducesTo_S50000x32x128_S_d0_1_2 : S50000x32x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : FVec F S50000x32x128 .f32) (main_arg2 : FVec F S128x128 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S50000x32x128 : Shape := ⟨3, ![50000, 32, 128]⟩
abbrev S128x128 : Shape := ⟨2, ![128, 128]⟩
abbrev S_ : Shape := ⟨0, ![]⟩
abbrev S1000x128 : Shape := ⟨2, ![1000, 128]⟩
abbrev S1000x32x128 : Shape := ⟨3, ![1000, 32, 128]⟩

abbrev nBuf : Space → Nat
  | .hbm => 12
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S_, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x32x128, .f32⟩
  | .local _ .vmem, ⟨3, _⟩ => ⟨S1000x32x128, .f32⟩
  | .local _ .vmem, ⟨4, _⟩ => ⟨S128x128, .f32⟩
  | .local _ .vmem, ⟨5, _⟩ => ⟨S128x128, .f32⟩
  | .local _ .vmem, ⟨6, _⟩ => ⟨S1000x128, .f32⟩
  | .local _ .vmem, ⟨7, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S128x128 : S_.BroadcastsInDim S128x128 (![] : Fin 0 → Fin S128x128.rank)
  transposes_S128x128_S128x128_1_0 : S128x128.Transposes [1, 0] S128x128
  inb_S1000x32x128_S1000x32x128_0_0_0 : ∀ a, (![0, 0, 0] : Fin 3 → Nat) a + S1000x32x128.size a ≤ S1000x32x128.size a
  h_S1000x32x128 : 0 < S1000x32x128.numel
  reduces_S1000x32x128_S1000x128 : S1000x32x128.Reduces [1] S1000x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x128 : Shape := ⟨3, ![50000, 32, 128]⟩
abbrev S128x128 : Shape := ⟨2, ![128, 128]⟩
abbrev S50000x1x128 : Shape := ⟨3, ![50000, 1, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S50000x128, .f32⟩
  | .hbm, ⟨7, _⟩ => ⟨S128x128, .f32⟩
  | .hbm, ⟨8, _⟩ => ⟨S50000x128, .f32⟩
  | .hbm, ⟨9, _⟩ => ⟨S50000x32x128, .f32⟩
  | .hbm, ⟨10, _⟩ => ⟨S50000x1x128, .f32⟩
  | .hbm, ⟨11, _⟩ => ⟨S50000x32x128, .f32⟩
  | .hbm, ⟨12, _⟩ => ⟨S50000x32x128, .f32⟩
  | .hbm, ⟨13, _⟩ => ⟨S_, .f32⟩
  | .hbm, ⟨14, _⟩ => ⟨S50000x128, .f32⟩
  | .hbm, ⟨15, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S128x128_S128x128_1_0 : S128x128.Transposes [1, 0] S128x128
  bcast_S50000x128_S50000x1x128_0_2 : S50000x128.BroadcastsInDim S50000x1x128 (![0, 2] : Fin 2 → Fin S50000x1x128.rank)
  bcast_S50000x1x128_S50000x32x128_0_1_2 : S50000x1x128.BroadcastsInDim S50000x32x128 (![0, 1, 2] : Fin 3 → Fin S50000x32x128.rank)
  reducesTo_S50000x32x128_S50000x128_d1 : S50000x32x128.ReducesTo [1] S50000x128
  h_S_ : 0 < S_.numel
  dot_S50000x128_S128x128_S50000x128_1_0_0_1_n_n_wf : DotDims.WF S50000x128 S128x128 S50000x128 [1] [0] [0] [1] [] []
  dot_S50000x32x128_S128x128_S50000x32x128_2_1_01_0_n_n_wf : DotDims.WF S50000x32x128 S128x128 S50000x32x128 [2] [1] [0, 1] [0] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x32x128_S128x128_S50000x32x128_2_1_01_0_n_n : DotDims S50000x32x128 S128x128 S50000x32x128 where
  lhsContracting := [2]
  rhsContracting := [1]
  lhsNonContracting := [0, 1]
  rhsNonContracting := [0]
  lhsBatch := []
  rhsBatch := []
  wf := dot_S50000x32x128_S128x128_S50000x32x128_2_1_01_0_n_n_wf

class Facts : Prop extends Facts₀ where

variable [Facts]
-- ==== Proof.Spec.lean ====
/-
  The two closed forms of this certificate's result and the law that joins them.

  With `src : [50000,128]`, `comm : [50000,32,128]` and three weight matrices `W1 W2 W3 : [128,128]` (rows are output
  channels), the kernel computes, at node `n` and output channel `o`,
      Σ_k src[n,k]·(W1[o,k] + 32·W2[o,k])  −  Σ_k (Σ_c comm[n,c,k])·W3[o,k],
  and the reference
      Σ_k src[n,k]·W1[o,k]  +  (0 + Σ_c ( Σ_k src[n,k]·W2[o,k] − Σ_k comm[n,c,k]·W3[o,k] )).
  Over the reals these agree: the inner difference summed over the 32 communities is 32 copies of the second
  projection minus the double sum, the double sum's two orders agree, and the products distribute. On the extended
  reals distributivity needs finite entries, so the law is stated for entries that are real numbers.
-/
import Idealize.ShloMosaic.PureOps.Ideal
import Idealize.ShloMosaic.Lib.ValueIdx

noncomputable section

namespace Cert.LEConv

open Idealize.ShloMosaic Idealize.ShloMosaic.ValueIdx

/-- The word `0x42000000` is the float `32.0`: the number of communities the kernel's host code scales `W2` by. -/
theorem ofBits_32 : Ideal.ofBits .f32 0x42000000#32 = ((32 : ℝ) : EReal) := by
  simp [Ideal.ofBits, Ideal.ieee, -EReal.coe_mul]; norm_num

/-- The coercion of the reals into the extended reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The law over the reals, for one node and one output channel: `s` the node's row of `src`, `cm c` its
    community rows, `w1 w2 w3` the output channel's rows of the three weights, `κ` the communities. -/
theorem real_law {ι κ : Type} [Fintype ι] [Fintype κ] (s w1 w2 w3 : ι → ℝ) (cm : κ → ι → ℝ) (n : ℝ)
    (hn : n = (Fintype.card κ : ℝ)) :
    (∑ k, s k * w1 k) + ∑ c, ((∑ k, s k * w2 k) - ∑ k, cm c k * w3 k)
      = (∑ k, s k * (w1 k + n * w2 k)) - ∑ k, (∑ c, cm c k) * w3 k := by
  have h1 : ∑ c : κ, ((∑ k, s k * w2 k) - ∑ k, cm c k * w3 k)
      = n * (∑ k, s k * w2 k) - ∑ c, ∑ k, cm c k * w3 k := by
    rw [Finset.sum_sub_distrib, Finset.sum_const, Finset.card_univ, nsmul_eq_mul, hn]
  have h2 : ∑ k, s k * (w1 k + n * w2 k) = (∑ k, s k * w1 k) + n * ∑ k, s k * w2 k := by
    rw [Finset.mul_sum, ← Finset.sum_add_distrib]
    exact Finset.sum_congr rfl fun k _ => by ring
  have h3 : ∑ k, (∑ c, cm c k) * w3 k = ∑ c, ∑ k, cm c k * w3 k := by
    rw [Finset.sum_comm]
    exact Finset.sum_congr rfl fun k _ => Finset.sum_mul _ _ _
  rw [h1, h2, h3]; ring

/-- The same law on the extended reals, for real entries: every sum and product below is a real number, so the
    real law transports. The reference's sum over the communities starts from its initial value `0`. -/
theorem ereal_law {ι κ : Type} [Fintype ι] [Fintype κ] (s w1 w2 w3 : ι → ℝ) (cm : κ → ι → ℝ) (n : ℝ)
    (hn : n = (Fintype.card κ : ℝ)) :
    (∑ k, (s k : EReal) * (w1 k : EReal))
        + ((0 : EReal) + ∑ c, ((∑ k, (s k : EReal) * (w2 k : EReal)) - ∑ k, (cm c k : EReal) * (w3 k : EReal)))
      = (∑ k, (s k : EReal) * ((w1 k : EReal) + (n : EReal) * (w2 k : EReal)))
        - ∑ k, (∑ c, (cm c k : EReal)) * (w3 k : EReal) := by
  rw [zero_add]
  simp only [← EReal.coe_mul, ← EReal.coe_add, ← coe_sum, ← EReal.coe_sub]
  exact congrArg _ (real_law s w1 w2 w3 cm n hn)

/-- An extended real that is neither infinity is a real number; so is every entry of an array of such. -/
theorem exists_real {ι : Type} (a : ι → EReal) (h : ∀ i, a i ≠ ⊤ ∧ a i ≠ ⊥) : ∃ r : ι → ℝ, ∀ i, a i = (r i : EReal) :=
  ⟨fun i => (a i).toReal, fun i => (EReal.coe_toReal (h i).1 (h i).2).symm⟩

abbrev Src : Shape := ⟨2, ![50000, 128]⟩
abbrev Comm : Shape := ⟨3, ![50000, 32, 128]⟩
abbrev Wt : Shape := ⟨2, ![128, 128]⟩

/-- The kernel's form of the result at node `n`, output channel `o`; `c32` is the scale the host code puts on `W2`. -/
def kernelForm (c32 : EReal) (a0 : Src.Idx → EReal) (a1 : Comm.Idx → EReal) (a2 a3 a4 : Wt.Idx → EReal)
    (n : Fin 50000) (o : Fin 128) : EReal :=
  (∑ k : Fin 128, a0 (ix2 n k) * (a2 (ix2 o k) + c32 * a3 (ix2 o k)))
    - ∑ k : Fin 128, (∑ c : Fin 32, a1 (ix3 n c k)) * a4 (ix2 o k)

/-- The reference's form of the result at node `n`, output channel `o`; `z` is the initial value of its sum over
    the communities. -/
def refForm (z : EReal) (a0 : Src.Idx → EReal) (a1 : Comm.Idx → EReal) (a2 a3 a4 : Wt.Idx → EReal)
    (n : Fin 50000) (o : Fin 128) : EReal :=
  (∑ k : Fin 128, a0 (ix2 n k) * a2 (ix2 o k))
    + (z + ∑ c : Fin 32, ((∑ k : Fin 128, a0 (ix2 n k) * a3 (ix2 o k)) - ∑ k : Fin 128, a1 (ix3 n c k) * a4 (ix2 o k)))

/-- For arrays of finite entries the two forms agree, the scale being the number of communities and the initial
    value zero. -/
theorem refForm_eq_kernelForm (a0 : Src.Idx → EReal) (a1 : Comm.Idx → EReal) (a2 a3 a4 : Wt.Idx → EReal)
    (h0 : ∀ i, a0 i ≠ ⊤ ∧ a0 i ≠ ⊥) (h1 : ∀ i, a1 i ≠ ⊤ ∧ a1 i ≠ ⊥) (h2 : ∀ i, a2 i ≠ ⊤ ∧ a2 i ≠ ⊥)
    (h3 : ∀ i, a3 i ≠ ⊤ ∧ a3 i ≠ ⊥) (h4 : ∀ i, a4 i ≠ ⊤ ∧ a4 i ≠ ⊥) (n : Fin 50000) (o : Fin 128) :
    refForm 0 a0 a1 a2 a3 a4 n o = kernelForm ((32 : ℝ) : EReal) a0 a1 a2 a3 a4 n o := by
  obtain ⟨r0, e0⟩ := exists_real a0 h0
  obtain ⟨r1, e1⟩ := exists_real a1 h1
  obtain ⟨r2, e2⟩ := exists_real a2 h2
  obtain ⟨r3, e3⟩ := exists_real a3 h3
  obtain ⟨r4, e4⟩ := exists_real a4 h4
  unfold refForm kernelForm
  simp only [e0, e1, e2, e3, e4]
  exact ereal_law (fun k : Fin 128 => r0 (ix2 n k)) (fun k => r2 (ix2 o k)) (fun k => r3 (ix2 o k)) (fun k => r4 (ix2 o k))
    (fun (c : Fin 32) (k : Fin 128) => r1 (ix3 n c k)) 32 (by simp)

end Cert.LEConv

end
-- ==== Proof.Finite.lean ====
/-
  Finiteness of the inputs, read out of the precondition.

  The precondition says of each of the five input arrays that every entry's absolute value is below +∞, the five
  statements joined by `and`. An extended real whose absolute value `max x (−x)` is below +∞ is neither +∞ nor −∞.
-/
import proofs.«145644_j52888227283032_1_alg».proof.Pre_finite_inputs
import Idealize.ShloMosaic.PureOps.Ideal
import Idealize.ShloMosaic.Lib.ValueIdx
import Idealize.ShloMosaic.Lib.ReduceAll

noncomputable section

namespace Cert.LEConv.Finite

open Idealize.ShloMosaic Idealize.ShloMosaic.ValueIdx Cert.Pre_finite_inputs

/-- The word `0x7F800000` is +∞. -/
theorem ofBits_inf : Ideal.ofBits .f32 0x7F800000#32 = ⊤ := by simp [Ideal.ofBits, Ideal.ieee]

/-- An extended real whose absolute value compares below +∞ is neither infinity. -/
theorem elt (x : EReal) (h : Ideal.cmp .olt (max x (-x)) (Ideal.ofBits .f32 0x7F800000#32) = 1#1) : x ≠ ⊤ ∧ x ≠ ⊥ := by
  rw [ofBits_inf] at h
  have hlt : max x (-x) < ⊤ := by
    unfold Ideal.cmp at h
    by_contra hc
    simp [hc] at h
  constructor
  · rintro rfl; simp at hlt
  · rintro rfl; simp at hlt

instance : Subsingleton S_.Idx := ⟨fun a b => funext fun d => d.elim0⟩

/-- One input array: if the `and` over all entries of "the absolute value is below +∞" is true, every entry is
    finite. -/
theorem arr {s : Shape} {axes : List (Fin s.rank)} (x : FVec Ideal s .f32) (bc : S_.BroadcastsInDim s (![] : Fin 0 → Fin s.rank))
    (h : s.ReducesTo axes S_) (hu : 0 < S_.numel)
    (e : Host.reduce IntOp.andi (cmpf .olt (Host.absf x) (broadcastInDim s ![] bc (constant (F := Ideal) S_ .f32 0x7F800000#32)))
      (constantI S_ 1 1#1) h hu ix0 = 1#1) (i : s.Idx) : x i ≠ ⊤ ∧ x i ≠ ⊥ :=
  elt (x i) (Host.reduce_andi_all _ _ h hu ix0 e i)

variable [Facts]

/-- The precondition makes every entry of every input finite. -/
theorem of_pre (x0 : FVec Ideal S50000x128 .f32) (x1 : FVec Ideal S50000x32x128 .f32) (x2 x3 x4 : FVec Ideal S128x128 .f32)
    (h : fn (F := Ideal) x0 x1 x2 x3 x4 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) := by
  have h' := congrFun h ix0
  dsimp only [fn, fn_part1] at h'
  obtain ⟨h0123, e4⟩ := IntOp.andi_eq_one.1 h'
  obtain ⟨h012, e3⟩ := IntOp.andi_eq_one.1 h0123
  obtain ⟨h01, e2⟩ := IntOp.andi_eq_one.1 h012
  obtain ⟨e0, e1⟩ := IntOp.andi_eq_one.1 h01
  exact ⟨arr x0 _ _ _ e0, arr x1 _ _ _ e1, arr x2 _ _ _ e2, arr x3 _ _ _ e3, arr x4 _ _ _ e4⟩

end Cert.LEConv.Finite

end
-- ==== Proof.RefValue.lean ====
/-
  The reference's result, read at node `n` and output channel `o`, is its closed form: the first projection
  `Σ_k src[n,k]·W1[o,k]` plus the sum over the 32 communities, from the initial value, of the second projection minus
  the community's projection `Σ_k comm[n,c,k]·W3[o,k]`. Each stage is read at an index by the generated lemmas; what is
  left are the index compositions: a transposed weight read at `(k, o)` is the weight at `(o, k)`, and the broadcast of
  the second projection along the community axis reads it at `(n, o)` whatever the community.
-/
import proofs.«145644_j52888227283032_1_alg».proof.Proof.Gen.ReferenceIdeal.Read
import proofs.«145644_j52888227283032_1_alg».proof.Proof.Spec

noncomputable section

namespace Cert.LEConv.RefValue

open Cert.ReferenceIdeal Cert.ReferenceIdeal.Gen Cert.ReferenceIdeal.Read Idealize.ShloMosaic Idealize.ShloMosaic.ValueIdx

theorem lhs1 (n : Fin 50000) (o : Fin 128) (k : Fin 128) : lidx_main_v1 (ix2 n o) k = ix2 n k :=
  funext fun a => Fin.ext (by match a with | ⟨0, _⟩ => rfl | ⟨1, _⟩ => rfl)

theorem rhs1 (n : Fin 50000) (o : Fin 128) (k : Fin 128) : idx_main_v0 (ridx_main_v1 (ix2 n o) k) = ix2 o k :=
  funext fun a => Fin.ext (by match a with | ⟨0, _⟩ => rfl | ⟨1, _⟩ => rfl)

theorem lhs3 (n : Fin 50000) (o : Fin 128) (c : Fin 32) (k : Fin 128) :
    lidx_main_v3 (idx_main_v5 (idx_main_v6 (idx_main_v8 (ix2 n o) c))) k = ix2 n k :=
  funext fun a => Fin.ext (by match a with | ⟨0, _⟩ => rfl | ⟨1, _⟩ => rfl)

theorem rhs3 (n : Fin 50000) (o : Fin 128) (c : Fin 32) (k : Fin 128) :
    idx_main_v2 (ridx_main_v3 (idx_main_v5 (idx_main_v6 (idx_main_v8 (ix2 n o) c))) k) = ix2 o k :=
  funext fun a => Fin.ext (by match a with | ⟨0, _⟩ => rfl | ⟨1, _⟩ => rfl)

theorem lhs4 (n : Fin 50000) (o : Fin 128) (c : Fin 32) (k : Fin 128) :
    lidx_main_v4 (idx_main_v8 (ix2 n o) c) k = ix3 n c k :=
  funext fun a => Fin.ext (by match a with | ⟨0, _⟩ => rfl | ⟨1, _⟩ => rfl | ⟨2, _⟩ => rfl)

theorem rhs4 (n : Fin 50000) (o : Fin 128) (c : Fin 32) (k : Fin 128) :
    ridx_main_v4 (idx_main_v8 (ix2 n o) c) k = ix2 o k :=
  funext fun a => Fin.ext (by match a with | ⟨0, _⟩ => rfl | ⟨1, _⟩ => rfl)

/-- The reference's last stage at `(n, o)` is its closed form of the argument arrays. -/
theorem ref_apply (x0 : FVec Ideal S50000x128 .f32) (x1 : FVec Ideal S50000x32x128 .f32) (x2 x3 x4 : FVec Ideal S128x128 .f32)
    (n : Fin 50000) (o : Fin 128) :
    val_main_v9 (F := Ideal) x0 x1 x2 x3 x4 (ix2 n o)
      = Cert.LEConv.refForm (Ideal.ofBits .f32 0x00000000#32) x0 x1 x2 x3 x4 n o := by
  rw [val_main_v9_apply, val_main_v1_apply, val_main_v8_apply]
  simp only [val_main_v7_apply, val_main_v6_apply, val_main_v5_apply, val_main_v3_apply, val_main_v4_apply,
    val_main_v0_apply, val_main_v2_apply, val_main_cst_apply, lhs1, rhs1, lhs3, rhs3, lhs4, rhs4]
  rfl

/-- So the reference's result array is that closed form, index by index. -/
theorem ref_eq (x0 : FVec Ideal S50000x128 .f32) (x1 : FVec Ideal S50000x32x128 .f32) (x2 x3 x4 : FVec Ideal S128x128 .f32) :
    val_main_v9 (F := Ideal) x0 x1 x2 x3 x4
      = fun i => Cert.LEConv.refForm (Ideal.ofBits .f32 0x00000000#32) x0 x1 x2 x3 x4 (i 0) (i 1) := by
  funext i
  obtain ⟨n, o, rfl⟩ : ∃ (n : Fin 50000) (o : Fin 128), i = ix2 n o := ⟨i 0, i 1, eq_ix2 i⟩
  exact ref_apply x0 x1 x2 x3 x4 n o

end Cert.LEConv.RefValue

end
-- ==== Proof.Payload.lean ====
/-
  What the kernel body stores, read at row `p` and output channel `q` of a block of 1000 nodes: with `s` the block of
  `src`, `cm` the block of `comm`, and `a`, `b` the two [128,128] operands (contraction index first),
      Σ_k s[p,k]·a[k,q]  −  Σ_k (Σ_c cm[p,c,k])·b[k,q].
  Both matrix products accumulate into zero, so each is the plain sum over the contraction index; the reduction over
  the community axis starts from the additive neutral, so it is the plain sum over the 32 communities.
-/
import proofs.«145644_j52888227283032_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.LEConv.Payload

open Cert.KernelIdeal Cert.KernelIdeal.Gen Idealize.ShloMosaic Idealize.ShloMosaic.ValueIdx

theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A [1000,128]×[128,128] product into the zero accumulator, at `(p, q)`, is the sum over the contraction index. -/
theorem mm_apply (l : FVec Ideal S1000x128 .f32) (r : FVec Ideal S128x128 .f32) (p : Fin 1000) (q : Fin 128) :
    matmul dot_S1000x128_S128x128_S1000x128_1_0_0_1_n_n none l r (constant S1000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_0 _ _
    | ⟨1, _⟩ => exact (lhs_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The sum over the community axis of a [1000,32,128] block, at `(p, k)`. -/
theorem red_apply (v0 : FVec Ideal S1000x32x128 .f32) (p : Fin 1000) (k : Fin 128) :
    multiReduction .add [1] S1000x128 v0 0x00000000#32 reduces_S1000x32x128_S1000x128 (.inl rfl) rfl (ix2 p k)
      = ∑ c : Fin 32, v0 (ix3 p c k) := by
  refine (Ideal.multiReduction_add_single v0 0x00000000#32 reduces_S1000x32x128_S1000x128 (.inl rfl) rfl (ix2 p k)).trans ?_
  show (∑ c : Fin 32, v0 (reduces_S1000x32x128_S1000x128.lift (ix2 p k) c)) = _
  exact Finset.sum_congr rfl fun c _ => congrArg v0 (funext fun a => Fin.ext (by
    match a with
    | ⟨0, _⟩ => rfl
    | ⟨1, _⟩ => rfl
    | ⟨2, _⟩ => rfl))

/-- The body's stored value at `(p, q)`. -/
theorem pay_apply (v0 : FVec Ideal S1000x32x128 .f32) (v2 : FVec Ideal S1000x128 .f32) (v3 v6 : FVec Ideal S128x128 .f32)
    (p : Fin 1000) (q : Fin 128) :
    k0_pay1 (F := Ideal) v0 v2 v3 v6 (ix2 p q)
      = (∑ k : Fin 128, v2 (ix2 p k) * v3 (ix2 k q)) - ∑ k : Fin 128, (∑ c : Fin 32, v0 (ix3 p c k)) * v6 (ix2 k q) := by
  unfold k0_pay1
  show (matmul dot_S1000x128_S128x128_S1000x128_1_0_0_1_n_n none v2 (shapeCast S128x128 v3 shapeCasts_S128x128_S128x128)
        (constant S1000x128 .f32 0x00000000#32) (ix2 p q))
      - (matmul dot_S1000x128_S128x128_S1000x128_1_0_0_1_n_n none
          (multiReduction .add [1] S1000x128 v0 0x00000000#32 reduces_S1000x32x128_S1000x128 (.inl rfl) rfl)
          (shapeCast S128x128 v6 shapeCasts_S128x128_S128x128) (constant S1000x128 .f32 0x00000000#32) (ix2 p q)) = _
  refine congrArg₂ (· - ·) ((mm_apply _ _ p q).trans ?_) ((mm_apply _ _ p q).trans ?_)
  · exact Finset.sum_congr rfl fun k _ => congrArg (v2 (ix2 p k) * ·) (congrFun (shapeCast_self v3 _) (ix2 k q))
  · exact Finset.sum_congr rfl fun k _ => congrArg₂ (· * ·) (red_apply v0 p k) (congrFun (shapeCast_self v6 _) (ix2 k q))

end Cert.LEConv.Payload

end
-- ==== Proof.KernelValue.lean ====
/-
  The kernel's result array as one function of the argument arrays.

  The grid has 50 points; point `t` reads rows `1000·t … 1000·t + 999` of `src` and of `comm`, the two [128,128]
  operands whole, and writes rows `1000·t … 1000·t + 999` of the result. The first operand is the transpose of
  `W1 + 32·W2` and the second the transpose of `W3`, both written by the host code before the kernel runs, so at
  `(k, o)` they read `W1[o,k] + 32·W2[o,k]` and `W3[o,k]`. Hence row `n`, channel `o` of the result is the
  kernel's closed form at `(n, o)`, and the 50 row blocks cover the result array.
-/
import proofs.«145644_j52888227283032_1_alg».proof.Proof.Gen.KernelIdeal.Value
import proofs.«145644_j52888227283032_1_alg».proof.Proof.Payload
import proofs.«145644_j52888227283032_1_alg».proof.Proof.Spec
import Idealize.ShloMosaic.Lib.StableHlo.Run

noncomputable section

namespace Cert.LEConv.KernelValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 50 grid points: the row windows move with the point, the weight
    windows stay at block zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The five argument arrays as launched, at their literal types. -/
abbrev a0 (c : Dev nD) : FVec Ideal S50000x128 .f32 := m ((c : Thread nD τ).loc main_arg0)
abbrev a1 (c : Dev nD) : FVec Ideal S50000x32x128 .f32 := m ((c : Thread nD τ).loc main_arg1)
abbrev a2 (c : Dev nD) : FVec Ideal S128x128 .f32 := m ((c : Thread nD τ).loc main_arg2)
abbrev a3 (c : Dev nD) : FVec Ideal S128x128 .f32 := m ((c : Thread nD τ).loc main_arg3)
abbrev a4 (c : Dev nD) : FVec Ideal S128x128 .f32 := m ((c : Thread nD τ).loc main_arg4)

/-! ## The arrays the host code writes before the kernel -/

/-- The first [128,128] operand: the transpose of `W1 + 32·W2`. -/
theorem V_v3 (c : Dev nD) : (V m c main_v3 : S128x128.Idx → EReal)
    = transpose S128x128 [1, 0] (addf (a2 m c)
        (mulf (broadcastInDim S128x128 ![] bcast_S_S128x128 (constant (F := Ideal) S_ .f32 0x42000000#32)) (a3 m c)))
        transposes_S128x128_S128x128_1_0 := by
  dsimp only [V, hostOps0]; after_results

/-- The second [128,128] operand: the transpose of `W3`. -/
theorem V_v4 (c : Dev nD) : (V m c main_v4 : S128x128.Idx → EReal)
    = transpose S128x128 [1, 0] (a4 m c) transposes_S128x128_S128x128_1_0 := by
  dsimp only [V, hostOps0]; after_results

theorem V_v3_apply (c : Dev nD) (k o : Fin 128) : (V m c main_v3 : S128x128.Idx → EReal) (ix2 k o)
    = a2 m c (ix2 o k) + Ideal.ofBits .f32 0x42000000#32 * a3 m c (ix2 o k) := by
  refine (congrFun (V_v3 m c) (ix2 k o)).trans ?_
  exact transpose_apply [1, 0] _ transposes_S128x128_S128x128_1_0 (ix2 k o) (ix2 o k) (fun b => match b with
    | ⟨0, _⟩ => rfl
    | ⟨1, _⟩ => rfl)

theorem V_v4_apply (c : Dev nD) (k o : Fin 128) : (V m c main_v4 : S128x128.Idx → EReal) (ix2 k o)
    = a4 m c (ix2 o k) := by
  refine (congrFun (V_v4 m c) (ix2 k o)).trans ?_
  exact transpose_apply [1, 0] _ transposes_S128x128_S128x128_1_0 (ix2 k o) (ix2 o k) (fun b => match b with
    | ⟨0, _⟩ => rfl
    | ⟨1, _⟩ => rfl)

/-! ## The input blocks at a point, read at explicit coordinates -/

/-- Row `p` of point `t`'s block of `src` is row `1000·t + p` of `src`. -/
theorem src_blk (c : Dev nD) (t : Fin cfg0.N) (p : Fin 1000) (k : Fin 128) (n : Fin 50000)
    (hn : n.val = t.val * 1000 + p.val) :
    (iblk m c 0 t : Vec Ideal S1000x128 .f32) (ix2 p k) = a0 m c (ix2 n k) := by
  obtain ⟨e0, e1, -⟩ := idx_facts t
  unfold iblk
  rw [View.read_apply]
  show V m c main_arg0 _ = a0 m c _
  refine (congrFun (V_main_arg0 m c) _).trans (congrArg (a0 m c) (funext fun a => Fin.ext ?_))
  match a with
  | ⟨0, _⟩ => show win0_0.index t (0 : Fin 2) * 1000 + 1 * p.val = n.val; rw [e0, hn]; omega
  | ⟨1, _⟩ => show win0_0.index t (1 : Fin 2) * 128 + 1 * k.val = k.val; rw [e1]; omega

/-- Row `p` of point `t`'s block of `comm` is row `1000·t + p` of `comm`. -/
theorem comm_blk (c : Dev nD) (t : Fin cfg0.N) (p : Fin 1000) (cc : Fin 32) (k : Fin 128) (n : Fin 50000)
    (hn : n.val = t.val * 1000 + p.val) :
    (iblk m c 1 t : Vec Ideal S1000x32x128 .f32) (ix3 p cc k) = a1 m c (ix3 n cc k) := by
  obtain ⟨-, -, e0, e1, e2, -⟩ := idx_facts t
  unfold iblk
  rw [View.read_apply]
  show V m c main_arg1 _ = a1 m c _
  refine (congrFun (V_main_arg1 m c) _).trans (congrArg (a1 m c) (funext fun a => Fin.ext ?_))
  match a with
  | ⟨0, _⟩ => show win0_1.index t (0 : Fin 3) * 1000 + 1 * p.val = n.val; rw [e0, hn]; omega
  | ⟨1, _⟩ => show win0_1.index t (1 : Fin 3) * 32 + 1 * cc.val = cc.val; rw [e1]; omega
  | ⟨2, _⟩ => show win0_1.index t (2 : Fin 3) * 128 + 1 * k.val = k.val; rw [e2]; omega

/-- The first weight operand's block is the whole operand, at every point. -/
theorem wc_blk (c : Dev nD) (t : Fin cfg0.N) (k o : Fin 128) :
    (iblk m c 2 t : Vec Ideal S128x128 .f32) (ix2 k o) = a2 m c (ix2 o k) + Ideal.ofBits .f32 0x42000000#32 * a3 m c (ix2 o k) := by
  obtain ⟨-, -, -, -, -, e0, e1, -⟩ := idx_facts t
  unfold iblk
  rw [View.read_apply]
  show (V m c main_v3 : S128x128.Idx → EReal) _ = _
  refine (congrArg (V m c main_v3 : S128x128.Idx → EReal) (funext fun a => Fin.ext ?_)).trans (V_v3_apply m c k o)
  match a with
  | ⟨0, _⟩ => show win0_2.index t (0 : Fin 2) * 128 + 1 * k.val = k.val; rw [e0]; omega
  | ⟨1, _⟩ => show win0_2.index t (1 : Fin 2) * 128 + 1 * o.val = o.val; rw [e1]; omega

/-- The second weight operand's block is the whole operand, at every point. -/
theorem w3_blk (c : Dev nD) (t : Fin cfg0.N) (k o : Fin 128) :
    (iblk m c 3 t : Vec Ideal S128x128 .f32) (ix2 k o) = a4 m c (ix2 o k) := by
  obtain ⟨-, -, -, -, -, -, -, e0, e1, -⟩ := idx_facts t
  unfold iblk
  rw [View.read_apply]
  show (V m c main_v4 : S128x128.Idx → EReal) _ = _
  refine (congrArg (V m c main_v4 : S128x128.Idx → EReal) (funext fun a => Fin.ext ?_)).trans (V_v4_apply m c k o)
  match a with
  | ⟨0, _⟩ => show win0_3.index t (0 : Fin 2) * 128 + 1 * k.val = k.val; rw [e0]; omega
  | ⟨1, _⟩ => show win0_3.index t (1 : Fin 2) * 128 + 1 * o.val = o.val; rw [e1]; omega

/-! ## From the row blocks to the array -/

/-- The result array the kernel leaves: its closed form of the arguments at every node and output channel. -/
abbrev G (c : Dev nD) : S50000x128.Idx → EReal := fun i =>
  Cert.LEConv.kernelForm (Ideal.ofBits .f32 0x42000000#32) (a0 m c) (a1 m c) (a2 m c) (a3 m c) (a4 m c) (i 0) (i 1)

/-- What point `t` writes back is rows `1000·t … 1000·t + 999` of `G`. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero hz2]
  simp only [View.ld_unit_zero (S := S1000x128) hz2, View.ld_unit_zero (S := S128x128) hz2,
    View.ld_unit_zero (S := S1000x32x128) hz3]
  obtain ⟨-, -, -, -, -, -, -, -, -, e0, e1⟩ := idx_facts t
  have hN : cfg0.N = 50 := N_0
  refine funext fun (j : S1000x128.Idx) => ?_
  obtain ⟨p, q, rfl⟩ : ∃ (p : Fin 1000) (q : Fin 128), j = ix2 p q := ⟨j 0, j 1, eq_ix2 j⟩
  show k0_pay1 (F := Ideal) (iblk m c 1 t) (iblk m c 0 t) (iblk m c 2 t) (iblk m c 3 t) (ix2 p q)
    = G m c (((cfg0.win 4).blk t).view.emb (ix2 p q))
  obtain ⟨n, hn⟩ : ∃ n : Fin 50000, n.val = t.val * 1000 + p.val :=
    ⟨⟨t.val * 1000 + p.val, by have := t.isLt; have := p.isLt; omega⟩, rfl⟩
  have hn0 : (((cfg0.win 4).blk t).view.emb (ix2 p q)) 0 = n :=
    Fin.ext (by show win0_4.index t (0 : Fin 2) * 1000 + 1 * p.val = n.val; rw [e0, hn]; omega)
  have hn1 : (((cfg0.win 4).blk t).view.emb (ix2 p q)) 1 = q :=
    Fin.ext (by show win0_4.index t (1 : Fin 2) * 128 + 1 * q.val = q.val; rw [e1]; omega)
  refine (Cert.LEConv.Payload.pay_apply (iblk m c 1 t) (iblk m c 0 t) (iblk m c 2 t) (iblk m c 3 t) p q).trans ?_
  refine Eq.trans ?_ (congrArg₂ (Cert.LEConv.kernelForm (Ideal.ofBits .f32 0x42000000#32) (a0 m c) (a1 m c) (a2 m c) (a3 m c) (a4 m c)) hn0.symm hn1.symm)
  unfold Cert.LEConv.kernelForm
  exact congrArg₂ (· - ·)
    (Finset.sum_congr rfl fun k _ => congrArg₂ (· * ·) (src_blk m c t p k n hn) (wc_blk m c t k q))
    (Finset.sum_congr rfl fun k _ => congrArg₂ (· * ·)
      (Finset.sum_congr rfl fun cc _ => comm_blk m c t p cc k n hn) (w3_blk m c t k q))

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v5).slice (win0_4.rect t)).set ↔ _
  rw [View.set_slice_whole, Rect.mem_set_unit]
  exact Iff.rfl

/-- Row `r` of the result is in the block of point `r / 1000`: the 50 blocks cover the array. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, -, e0, e1⟩ := idx_facts t
  refine ⟨t, flush0_4 t, ?_⟩
  rw [mem_blk]
  intro a
  match a with
  | ⟨0, _⟩ =>
    show win0_4.index t (0 : Fin 2) * 1000 ≤ (i 0).val ∧ (i 0).val < win0_4.index t (0 : Fin 2) * 1000 + 1000
    rw [e0, ht]; omega
  | ⟨1, _⟩ =>
    show win0_4.index t (1 : Fin 2) * 128 ≤ (i 1).val ∧ (i 1).val < win0_4.index t (1 : Fin 2) * 128 + 128
    rw [e1]; omega

/-- So the result array ends holding `G`. -/
theorem final (c : Dev nD) : (dats m 0 c).arrAt 4 cfg0.N = G m c :=
  (dats m 0 c).arrAt_eq_of_cover 4 (G m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.LEConv.KernelValue

end
-- ==== Proof.lean ====
/-
  The certificate of a message-passing layer: for every node `n` and output channel `o`,
      out[n,o] = Σ_k src[n,k]·W1[o,k] + Σ_c ( Σ_k src[n,k]·W2[o,k] − Σ_k comm[n,c,k]·W3[o,k] )
  over 50000 nodes, 32 communities a node and 128 channels. The kernel folds the two projections of `src` into one
  weight `W1 + 32·W2`, sums `comm` over the community axis before projecting it by `W3`, and subtracts; it works on
  blocks of 1000 nodes. With finite inputs every sum and product is a real number and the two forms agree by
  distributivity and by exchanging the two sums (Proof/Spec.lean). Proof/Finite.lean reads the finiteness out of the
  precondition, Proof/RefValue.lean the reference's form out of its run, Proof/Payload.lean what one block's body
  stores, Proof/KernelValue.lean the kernel's result array block by block. The three frames are the programs' runs
  with the result dropped; no operation is rewritten by the idealization, so there is nothing to preserve.
-/
import proofs.«145644_j52888227283032_1_alg».proof.Defs
import proofs.«145644_j52888227283032_1_alg».proof.Proof.Gen.Kernel
import proofs.«145644_j52888227283032_1_alg».proof.Proof.Gen.Kernel.Skeleton
import proofs.«145644_j52888227283032_1_alg».proof.Proof.Gen.Kernel.Launch
import proofs.«145644_j52888227283032_1_alg».proof.Proof.Gen.Kernel.Points
import proofs.«145644_j52888227283032_1_alg».proof.Proof.Gen.Kernel.Frame
import proofs.«145644_j52888227283032_1_alg».proof.Proof.Gen.KernelIdeal
import proofs.«145644_j52888227283032_1_alg».proof.Proof.Gen.KernelIdeal.Skeleton
import proofs.«145644_j52888227283032_1_alg».proof.Proof.Gen.KernelIdeal.Launch
import proofs.«145644_j52888227283032_1_alg».proof.Proof.Gen.KernelIdeal.Points
import proofs.«145644_j52888227283032_1_alg».proof.Proof.Gen.KernelIdeal.Frame
import proofs.«145644_j52888227283032_1_alg».proof.Proof.Gen.ReferenceIdeal
import proofs.«145644_j52888227283032_1_alg».proof.Proof.Gen.Pre_finite_inputs
import proofs.«145644_j52888227283032_1_alg».proof.Proof.Gen.KernelIdeal.Value
import proofs.«145644_j52888227283032_1_alg».proof.Proof.Gen.ReferenceIdeal.Run
import proofs.«145644_j52888227283032_1_alg».proof.Proof.Gen.ReferenceIdeal.Read
import proofs.«145644_j52888227283032_1_alg».proof.Proof.Spec
import proofs.«145644_j52888227283032_1_alg».proof.Proof.Finite
import proofs.«145644_j52888227283032_1_alg».proof.Proof.RefValue
import proofs.«145644_j52888227283032_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the kernel's closed form in the result array: the kernel by its run read block by block,
    the reference because its own closed form equals the kernel's on finite inputs. -/
theorem algebraic : Cert.algebraic_KernelIdeal_ReferenceIdeal := by
  intro m ρ m' ρ' hpre hagree
  refine ⟨fun c => Cert.LEConv.KernelValue.G m c, Cert.LEConv.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4⟩ := hagree c
  obtain ⟨f0, f1, f2, f3, f4⟩ := Cert.LEConv.Finite.of_pre _ _ _ _ _ (hpre c)
  rw [g0, g1, g2, g3, g4]
  refine (Cert.ReferenceIdeal.Read.val_main_v9_eq (F := Ideal) _ _ _ _ _).trans ?_
  refine (Cert.LEConv.RefValue.ref_eq _ _ _ _ _).trans ?_
  funext i
  show Cert.LEConv.refForm _ _ _ _ _ _ (i 0) (i 1) = Cert.LEConv.kernelForm _ _ _ _ _ _ (i 0) (i 1)
  rw [Ideal.ofBits_zero_f32, Cert.LEConv.ofBits_32]
  exact Cert.LEConv.refForm_eq_kernelForm _ _ _ _ _ f0 f1 f2 f3 f4 (i 0) (i 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
